-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S500000 : Shape := ⟨1, ![500000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg8 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg8
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S100000x128 .f32) (main_arg1 : IVec S500000 32) (main_arg2 : IVec S500000 32) (main_arg3 : IVec S500000 32) (main_arg4 : IVec S500000 32) (main_arg5 : FVec F S128x128 .f32) (main_arg6 : FVec F S128x128 .f32) (main_arg7 : FVec F S128x128 .f32) (main_arg8 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg5
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg6
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg7
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg8 main_v13 main_v16
-- ==== Kernel.lean ====
abbrev S100000x128 : Shape := ⟨2, ![100000, 128]⟩
abbrev S500000 : Shape := ⟨1, ![500000]⟩
abbrev S128x128 : Shape := ⟨2, ![128, 128]⟩
abbrev S128 : Shape := ⟨1, ![128]⟩
abbrev S1x128 : Shape := ⟨2, ![1, 128]⟩
abbrev S5000x128 : Shape := ⟨2, ![5000, 128]⟩
abbrev S_ : Shape := ⟨0, ![]⟩
abbrev S500000x1 : Shape := ⟨2, ![500000, 1]⟩
abbrev S500000x128 : Shape := ⟨2, ![500000, 128]⟩
abbrev S100000 : Shape := ⟨1, ![100000]⟩
abbrev S100000x1 : Shape := ⟨2, ![100000, 1]⟩

abbrev nBuf : Space → Nat
  | .hbm => 64
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S500000, .i32⟩
  | .hbm, ⟨2, _⟩ => ⟨S500000, .i32⟩
  | .hbm, ⟨3, _⟩ => ⟨S500000, .i32⟩
  | .hbm, ⟨4, _⟩ => ⟨S500000, .i32⟩
  | .hbm, ⟨5, _⟩ => ⟨S128x128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S1x128, .f32⟩
  | .hbm, ⟨10, _⟩ => ⟨S100000x128, .f32⟩
  | .hbm, ⟨11, _⟩ => ⟨S100000x128, .f32⟩
  | .hbm, ⟨12, _⟩ => ⟨S100000x128, .f32⟩
  | .hbm, ⟨13, _⟩ => ⟨S_, .i32⟩
  | .hbm, ⟨14, _⟩ => ⟨S500000, .i32⟩
  | .hbm, ⟨15, _⟩ => ⟨S500000, .i1⟩
  | .hbm, ⟨16, _⟩ => ⟨S_, .i32⟩
  | .hbm, ⟨17, _⟩ => ⟨S500000, .i32⟩
  | .hbm, ⟨18, _⟩ => ⟨S500000, .i32⟩
  | .hbm, ⟨19, _⟩ => ⟨S500000, .i32⟩
  | .hbm, ⟨20, _⟩ => ⟨S500000x1, .i32⟩
  | .hbm, ⟨21, _⟩ => ⟨S500000x128, .f32⟩
  | .hbm, ⟨22, _⟩ => ⟨S_, .f32⟩
  | .hbm, ⟨23, _⟩ => ⟨S100000x128, .f32⟩
  | .hbm, ⟨24, _⟩ => ⟨S500000x1, .i32⟩
  | .hbm, ⟨25, _⟩ => ⟨S100000x128, .f32⟩
  | .hbm, ⟨26, _⟩ => ⟨S_, .f32⟩
  | .hbm, ⟨27, _⟩ => ⟨S500000, .f32⟩
  | .hbm, ⟨28, _⟩ => ⟨S_, .f32⟩
  | .hbm, ⟨29, _⟩ => ⟨S100000, .f32⟩
  | .hbm, ⟨30, _⟩ => ⟨S500000x1, .i32⟩
  | .hbm, ⟨31, _⟩ => ⟨S100000, .f32⟩
  | .hbm, ⟨32, _⟩ => ⟨S_, .f32⟩
  | .hbm, ⟨33, _⟩ => ⟨S100000, .f32⟩
  | .hbm, ⟨34, _⟩ => ⟨S100000, .f32⟩
  | .hbm, ⟨35, _⟩ => ⟨S100000x1, .f32⟩
  | .hbm, ⟨36, _⟩ => ⟨S100000x128, .f32⟩
  | .hbm, ⟨37, _⟩ => ⟨S100000x128, .f32⟩
  | .hbm, ⟨38, _⟩ => ⟨S_, .i32⟩
  | .hbm, ⟨39, _⟩ => ⟨S500000, .i32⟩
  | .hbm, ⟨40, _⟩ => ⟨S500000, .i1⟩
  | .hbm, ⟨41, _⟩ => ⟨S_, .i32⟩
  | .hbm, ⟨42, _⟩ => ⟨S500000, .i32⟩
  | .hbm, ⟨43, _⟩ => ⟨S500000, .i32⟩
  | .hbm, ⟨44, _⟩ => ⟨S500000, .i32⟩
  | .hbm, ⟨45, _⟩ => ⟨S500000x1, .i32⟩
  | .hbm, ⟨46, _⟩ => ⟨S500000x128, .f32⟩
  | .hbm, ⟨47, _⟩ => ⟨S_, .f32⟩
  | .hbm, ⟨48, _⟩ => ⟨S100000x128, .f32⟩
  | .hbm, ⟨49, _⟩ => ⟨S500000x1, .i32⟩
  | .hbm, ⟨50, _⟩ => ⟨S100000x128, .f32⟩
  | .hbm, ⟨51, _⟩ => ⟨S_, .f32⟩
  | .hbm, ⟨52, _⟩ => ⟨S500000, .f32⟩
  | .hbm, ⟨53, _⟩ => ⟨S_, .f32⟩
  | .hbm, ⟨54, _⟩ => ⟨S100000, .f32⟩
  | .hbm, ⟨55, _⟩ => ⟨S500000x1, .i32⟩
  | .hbm, ⟨56, _⟩ => ⟨S100000, .f32⟩
  | .hbm, ⟨57, _⟩ => ⟨S_, .f32⟩
  | .hbm, ⟨58, _⟩ => ⟨S100000, .f32⟩
  | .hbm, ⟨59, _⟩ => ⟨S100000, .f32⟩
  | .hbm, ⟨60, _⟩ => ⟨S100000x1, .f32⟩
  | .hbm, ⟨61, _⟩ => ⟨S100000x128, .f32⟩
  | .hbm, ⟨62, _⟩ => ⟨S100000x128, .f32⟩
  | .hbm, ⟨63, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S128x128, .f32⟩
  | .local _ .vmem, ⟨4, _⟩ => ⟨S128x128, .f32⟩
  | .local _ .vmem, ⟨5, _⟩ => ⟨S1x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1_0 : Ref sig .tc := ⟨.hbm, 10, rfl⟩
abbrev main_v1_1 : Ref sig .tc := ⟨.hbm, 11, rfl⟩
abbrev main_v1_2 : Ref sig .tc := ⟨.hbm, 12, rfl⟩
abbrev main_c : Ref sig .tc := ⟨.hbm, 13, rfl⟩
abbrev main_v2 : Ref sig .tc := ⟨.hbm, 14, rfl⟩
abbrev main_v3 : Ref sig .tc := ⟨.hbm, 15, rfl⟩
abbrev main_c_0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_1 : Ref sig .tc := ⟨.hbm, 26, rfl⟩
abbrev main_v12 : Ref sig .tc := ⟨.hbm, 27, rfl⟩
abbrev main_cst_2 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst_3 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_c_4 : Ref sig .tc := ⟨.hbm, 38, rfl⟩
abbrev main_v21 : Ref sig .tc := ⟨.hbm, 39, rfl⟩
abbrev main_v22 : Ref sig .tc := ⟨.hbm, 40, rfl⟩
abbrev main_c_5 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst_6 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_7 : Ref sig .tc := ⟨.hbm, 51, rfl⟩
abbrev main_v31 : Ref sig .tc := ⟨.hbm, 52, rfl⟩
abbrev main_cst_8 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_cst_9 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S5000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  transposes_S128x128_p1_0_S128x128 : S128x128.Transposes [1, 0] S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S_S500000 : S_.BroadcastsInDim S500000 (![] : Fin 0 → Fin S500000.rank)
  bcast_S500000_S500000x1_0 : S500000.BroadcastsInDim S500000x1 (![0] : Fin 1 → Fin S500000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  shapeCasts_S5000x128_S5000x128 : S5000x128.ShapeCasts S5000x128
  dot_S5000x128_S128x128_S5000x128_1_0_0_1_n_n_wf : DotDims.WF S5000x128 S128x128 S5000x128 [1] [0] [0] [1] [] []
  gather_S100000x128_S500000x1_S500000x128_1_0_n_n_0_1_1128_wf : GatherDims.WF S100000x128 S500000x1 S500000x128 [1] [0] [] [0] [] 1 ![1, 128]
  scatter_S100000x128_S500000x1_S500000x128_1_0_0_1_wf : ScatterDims.WF S100000x128 S500000x1 S500000x128 [1] [0] [0] 1
  scatter_S100000_S500000x1_S500000_n_0_0_1_wf : ScatterDims.WF S100000 S500000x1 S500000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S100000x128.size a
  hwx0_6 : ∀ i : grid0.Coords, EltTy.bits .f32 = 32 ∨ (Rect.block (s := S100000x128) S5000x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S5000x128.size a ≤ S100000x128.size a
  hwx0_7 : ∀ i : grid0.Coords, EltTy.bits .f32 = 32 ∨ (Rect.block (s := S100000x128) S5000x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S100000x128.size a
  hwx1_3 : ∀ i : grid1.Coords, EltTy.bits .f32 = 32 ∨ (Rect.block (s := S100000x128) S5000x128.size (cc1_transform_3 i) (hinb1_3 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf
def scatter_S100000x128_S500000x1_S500000x128_1_0_0_1 : ScatterDims S100000x128 S500000x1 S500000x128 where
  updateWindowDims := [1]
  insertedWindowDims := [0]
  scatterDimsToOperandDims := [0]
  indexVectorDim := 1
  wf := scatter_S100000x128_S500000x1_S500000x128_1_0_0_1_wf
def scatter_S100000_S500000x1_S500000_n_0_0_1 : ScatterDims S100000 S500000x1 S500000 where
  updateWindowDims := []
  insertedWindowDims := [0]
  scatterDimsToOperandDims := [0]
  indexVectorDim := 1
  wf := scatter_S100000_S500000x1_S500000_n_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg6) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg7) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1_0) S5000x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v1_1) S5000x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v1_2) S5000x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v20) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v39) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1_2) S5000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v40) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x128 : Shape := ⟨2, ![100000, 128]⟩
abbrev S500000 : Shape := ⟨1, ![500000]⟩
abbrev S128x128 : Shape := ⟨2, ![128, 128]⟩
abbrev S128 : Shape := ⟨1, ![128]⟩
abbrev S_ : Shape := ⟨0, ![]⟩
abbrev S500000x1 : Shape := ⟨2, ![500000, 1]⟩
abbrev S500000x128 : Shape := ⟨2, ![500000, 128]⟩
abbrev S100000 : Shape := ⟨1, ![100000]⟩
abbrev S100000x1 : Shape := ⟨2, ![100000, 1]⟩
abbrev S1x128 : Shape := ⟨2, ![1, 128]⟩

abbrev nBuf : Space → Nat
  | .hbm => 76
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S500000, .i32⟩
  | .hbm, ⟨2, _⟩ => ⟨S500000, .i32⟩
  | .hbm, ⟨3, _⟩ => ⟨S500000, .i32⟩
  | .hbm, ⟨4, _⟩ => ⟨S500000, .i32⟩
  | .hbm, ⟨5, _⟩ => ⟨S128x128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S100000x128, .f32⟩
  | .hbm, ⟨11, _⟩ => ⟨S_, .i32⟩
  | .hbm, ⟨12, _⟩ => ⟨S500000, .i32⟩
  | .hbm, ⟨13, _⟩ => ⟨S500000, .i1⟩
  | .hbm, ⟨14, _⟩ => ⟨S_, .i32⟩
  | .hbm, ⟨15, _⟩ => ⟨S500000, .i32⟩
  | .hbm, ⟨16, _⟩ => ⟨S500000, .i32⟩
  | .hbm, ⟨17, _⟩ => ⟨S500000, .i32⟩
  | .hbm, ⟨18, _⟩ => ⟨S500000x1, .i32⟩
  | .hbm, ⟨19, _⟩ => ⟨S500000x128, .f32⟩
  | .hbm, ⟨20, _⟩ => ⟨S_, .f32⟩
  | .hbm, ⟨21, _⟩ => ⟨S100000x128, .f32⟩
  | .hbm, ⟨22, _⟩ => ⟨S500000x1, .i32⟩
  | .hbm, ⟨23, _⟩ => ⟨S100000x128, .f32⟩
  | .hbm, ⟨24, _⟩ => ⟨S_, .f32⟩
  | .hbm, ⟨25, _⟩ => ⟨S500000, .f32⟩
  | .hbm, ⟨26, _⟩ => ⟨S_, .f32⟩
  | .hbm, ⟨27, _⟩ => ⟨S100000, .f32⟩
  | .hbm, ⟨28, _⟩ => ⟨S500000x1, .i32⟩
  | .hbm, ⟨29, _⟩ => ⟨S100000, .f32⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S100000x1, .f32⟩
  | .hbm, ⟨34, _⟩ => ⟨S100000x128, .f32⟩
  | .hbm, ⟨35, _⟩ => ⟨S100000x128, .f32⟩
  | .hbm, ⟨36, _⟩ => ⟨S128x128, .f32⟩
  | .hbm, ⟨37, _⟩ => ⟨S100000x128, .f32⟩
  | .hbm, ⟨38, _⟩ => ⟨S_, .i32⟩
  | .hbm, ⟨39, _⟩ => ⟨S500000, .i32⟩
  | .hbm, ⟨40, _⟩ => ⟨S500000, .i1⟩
  | .hbm, ⟨41, _⟩ => ⟨S_, .i32⟩
  | .hbm, ⟨42, _⟩ => ⟨S500000, .i32⟩
  | .hbm, ⟨43, _⟩ => ⟨S500000, .i32⟩
  | .hbm, ⟨44, _⟩ => ⟨S500000, .i32⟩
  | .hbm, ⟨45, _⟩ => ⟨S500000x1, .i32⟩
  | .hbm, ⟨46, _⟩ => ⟨S500000x128, .f32⟩
  | .hbm, ⟨47, _⟩ => ⟨S_, .f32⟩
  | .hbm, ⟨48, _⟩ => ⟨S100000x128, .f32⟩
  | .hbm, ⟨49, _⟩ => ⟨S500000x1, .i32⟩
  | .hbm, ⟨50, _⟩ => ⟨S100000x128, .f32⟩
  | .hbm, ⟨51, _⟩ => ⟨S_, .f32⟩
  | .hbm, ⟨52, _⟩ => ⟨S500000, .f32⟩
  | .hbm, ⟨53, _⟩ => ⟨S_, .f32⟩
  | .hbm, ⟨54, _⟩ => ⟨S100000, .f32⟩
  | .hbm, ⟨55, _⟩ => ⟨S500000x1, .i32⟩
  | .hbm, ⟨56, _⟩ => ⟨S100000, .f32⟩
  | .hbm, ⟨57, _⟩ => ⟨S_, .f32⟩
  | .hbm, ⟨58, _⟩ => ⟨S100000, .f32⟩
  | .hbm, ⟨59, _⟩ => ⟨S100000, .f32⟩
  | .hbm, ⟨60, _⟩ => ⟨S100000x1, .f32⟩
  | .hbm, ⟨61, _⟩ => ⟨S100000x128, .f32⟩
  | .hbm, ⟨62, _⟩ => ⟨S100000x128, .f32⟩
  | .hbm, ⟨63, _⟩ => ⟨S100000x128, .f32⟩
  | .hbm, ⟨64, _⟩ => ⟨S_, .f32⟩
  | .hbm, ⟨65, _⟩ => ⟨S100000x128, .f32⟩
  | .hbm, ⟨66, _⟩ => ⟨S100000x128, .f32⟩
  | .hbm, ⟨67, _⟩ => ⟨S128x128, .f32⟩
  | .hbm, ⟨68, _⟩ => ⟨S100000x128, .f32⟩
  | .hbm, ⟨69, _⟩ => ⟨S1x128, .f32⟩
  | .hbm, ⟨70, _⟩ => ⟨S100000x128, .f32⟩
  | .hbm, ⟨71, _⟩ => ⟨S100000x128, .f32⟩
  | .hbm, ⟨72, _⟩ => ⟨S100000x128, .f32⟩
  | .hbm, ⟨73, _⟩ => ⟨S_, .f32⟩
  | .hbm, ⟨74, _⟩ => ⟨S100000x128, .f32⟩
  | .hbm, ⟨75, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_c : Ref sig .tc := ⟨.hbm, 11, rfl⟩
abbrev main_v2 : Ref sig .tc := ⟨.hbm, 12, rfl⟩
abbrev main_v3 : Ref sig .tc := ⟨.hbm, 13, rfl⟩
abbrev main_c_0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_3 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_c_4 : Ref sig .tc := ⟨.hbm, 38, rfl⟩
abbrev main_v23 : Ref sig .tc := ⟨.hbm, 39, rfl⟩
abbrev main_v24 : Ref sig .tc := ⟨.hbm, 40, rfl⟩
abbrev main_c_5 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_6 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_7 : Ref sig .tc := ⟨.hbm, 51, rfl⟩
abbrev main_v33 : Ref sig .tc := ⟨.hbm, 52, rfl⟩
abbrev main_cst_8 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_9 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_10 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_call0_cst : Ref sig .tc := ⟨.hbm, 73, rfl⟩
abbrev main_call0_v0 : Ref sig .tc := ⟨.hbm, 74, rfl⟩
abbrev main_v51 : Ref sig .tc := ⟨.hbm, 75, rfl⟩

abbrev nD : Nat := 1
abbrev τ : Topo := Topo.v7x

variable {F : FTy → Type} [FloatOps F]

class Facts₀ : Prop where
  transposes_S128x128_S128x128_1_0 : S128x128.Transposes [1, 0] S128x128
  bcast_S_S500000 : S_.BroadcastsInDim S500000 (![] : Fin 0 → Fin S500000.rank)
  bcast_S500000_S500000x1_0 : S500000.BroadcastsInDim S500000x1 (![0] : Fin 1 → Fin S500000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  dot_S100000x128_S128x128_S100000x128_1_0_0_1_n_n_wf : DotDims.WF S100000x128 S128x128 S100000x128 [1] [0] [0] [1] [] []
  gather_S100000x128_S500000x1_S500000x128_1_0_n_n_0_1_1128_wf : GatherDims.WF S100000x128 S500000x1 S500000x128 [1] [0] [] [0] [] 1 ![1, 128]
  scatter_S100000x128_S500000x1_S500000x128_1_0_0_1_wf : ScatterDims.WF S100000x128 S500000x1 S500000x128 [1] [0] [0] 1
  scatter_S100000_S500000x1_S500000_n_0_0_1_wf : ScatterDims.WF S100000 S500000x1 S500000 [] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf
def scatter_S100000x128_S500000x1_S500000x128_1_0_0_1 : ScatterDims S100000x128 S500000x1 S500000x128 where
  updateWindowDims := [1]
  insertedWindowDims := [0]
  scatterDimsToOperandDims := [0]
  indexVectorDim := 1
  wf := scatter_S100000x128_S500000x1_S500000x128_1_0_0_1_wf
def scatter_S100000_S500000x1_S500000_n_0_0_1 : ScatterDims S100000 S500000x1 S500000 where
  updateWindowDims := []
  insertedWindowDims := [0]
  scatterDimsToOperandDims := [0]
  indexVectorDim := 1
  wf := scatter_S100000_S500000x1_S500000_n_0_0_1_wf

class Facts : Prop extends Facts₀ where

variable [Facts]
-- ==== Proof.LibPlainMatmul.lean ====
/-
  Two operations of a dense layer read at one entry, at the ideal values (every float an extended real, every operation exact).

  * A matrix product with the PLAIN dimension numbers — an [M, K] matrix times a [K, N] matrix, the left operand contracted on
    its axis 1 and the right on its axis 0, no batch axis — accumulated into the zero matrix: its entry (p, q) is the sum over
    the contraction coordinate k of lhs (p, k) · rhs (k, q). The contraction index of such a product has one axis, and the sum
    over it is re-indexed through that axis's coordinate.
  * A one-row matrix [1, C] spread down R rows: its entry (p, k) is the row's entry (0, k).
-/
import Idealize.ShloMosaic.PureOps.Ideal.Laws
import Idealize.ShloMosaic.Lib.ValueIdx
import Idealize.ShloMosaic.Lib.Pipeline.Value

noncomputable section

open scoped BigOperators
open Idealize.ShloMosaic Idealize.ShloMosaic.ValueIdx

namespace Cert.Lib.PlainMatmul

variable {M K N : Nat}

/-- The plain product's dimension numbers as a record, over any evidence that they are well formed. -/
abbrev dims (wf : DotDims.WF (⟨2, ![M, K]⟩ : Shape) ⟨2, ![K, N]⟩ ⟨2, ![M, N]⟩ [1] [0] [0] [1] [] []) :
    DotDims (⟨2, ![M, K]⟩ : Shape) ⟨2, ![K, N]⟩ ⟨2, ![M, N]⟩ where
  lhsContracting := [1]
  rhsContracting := [0]
  lhsNonContracting := [0]
  rhsNonContracting := [1]
  lhsBatch := []
  rhsBatch := []
  wf := wf

variable (wf : DotDims.WF (⟨2, ![M, K]⟩ : Shape) ⟨2, ![K, N]⟩ ⟨2, ![M, N]⟩ [1] [0] [0] [1] [] [])

/-- The left operand's row coordinate is the result's row coordinate. -/
theorem lhs_row (j : (⟨2, ![M, N]⟩ : Shape).Idx) (q : (dims wf).contr.Idx) : ((dims wf).lhsIdx j q 0).val = (j 0).val := by
  unfold DotDims.lhsIdx
  rw [dif_neg (show ¬(0 : Fin (⟨2, ![M, K]⟩ : Shape).rank) ∈ (dims wf).lhsBatch from List.not_mem_nil),
    dif_pos (show (0 : Fin (⟨2, ![M, K]⟩ : Shape).rank) ∈ (dims wf).lhsNonContracting from List.mem_singleton.mpr rfl)]
  rfl

/-- The left operand's column coordinate is the contraction coordinate. -/
theorem lhs_col (j : (⟨2, ![M, N]⟩ : Shape).Idx) (q : (dims wf).contr.Idx) :
    ((dims wf).lhsIdx j q 1).val = (q ⟨0, Nat.one_pos⟩).val :=
  (dims wf).lhsIdx_val_of_single rfl j q

/-- The right operand's row coordinate is the contraction coordinate. -/
theorem rhs_row (j : (⟨2, ![M, N]⟩ : Shape).Idx) (q : (dims wf).contr.Idx) :
    ((dims wf).rhsIdx j q 0).val = (q ⟨0, Nat.one_pos⟩).val :=
  (dims wf).rhsIdx_val_of_single rfl j q

/-- The right operand's column coordinate is the result's column coordinate. -/
theorem rhs_col (j : (⟨2, ![M, N]⟩ : Shape).Idx) (q : (dims wf).contr.Idx) : ((dims wf).rhsIdx j q 1).val = (j 1).val := by
  unfold DotDims.rhsIdx
  rw [dif_neg (show ¬(1 : Fin (⟨2, ![K, N]⟩ : Shape).rank) ∈ (dims wf).rhsBatch from List.not_mem_nil),
    dif_pos (show (1 : Fin (⟨2, ![K, N]⟩ : Shape).rank) ∈ (dims wf).rhsNonContracting from List.mem_singleton.mpr rfl)]
  rfl

/-- The plain product into the zero matrix at entry (p, q): the sum over k of lhs (p, k) · rhs (k, q). -/
theorem apply_dims (prec : Option ContractPrecision) {φ₁ φ₂ : FTy} (lhs : FVec Ideal ⟨2, ![M, K]⟩ φ₁)
    (rhs : FVec Ideal ⟨2, ![K, N]⟩ φ₂) (p : Fin M) (q : Fin N) :
    FloatOps.matmul (dims wf) prec lhs rhs (constant (F := Ideal) ⟨2, ![M, N]⟩ .f32 0x00000000#32) (ix2 p q)
      = ∑ k : Fin K, lhs (ix2 p k) * rhs (ix2 k q) := by
  rw [Ideal.matmul_constant_zero_apply, ← Equiv.sum_comp (contrEquiv1 (dims wf) K rfl rfl).symm]
  refine Finset.sum_congr rfl fun k _ => ?_
  have hk := contrEquiv1_symm_val (dims wf) K rfl rfl k
  have el : (dims wf).lhsIdx (ix2 p q) ((contrEquiv1 (dims wf) K rfl rfl).symm k) = ix2 p k := funext fun a => Fin.ext (by
    match a with
    | ⟨0, _⟩ => exact lhs_row wf _ _
    | ⟨1, _⟩ => exact (lhs_col wf _ _).trans hk)
  have er : (dims wf).rhsIdx (ix2 p q) ((contrEquiv1 (dims wf) K rfl rfl).symm k) = ix2 k q := funext fun a => Fin.ext (by
    match a with
    | ⟨0, _⟩ => exact (rhs_row wf _ _).trans hk
    | ⟨1, _⟩ => exact rhs_col wf _ _)
  rw [el, er]

/-- The same for any record whose dimension numbers are the plain product's. -/
theorem apply (d : DotDims (⟨2, ![M, K]⟩ : Shape) ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) {φ₁ φ₂ : FTy} (lhs : FVec Ideal ⟨2, ![M, K]⟩ φ₁)
    (rhs : FVec Ideal ⟨2, ![K, N]⟩ φ₂) (p : Fin M) (q : Fin N) :
    FloatOps.matmul d prec lhs rhs (constant (F := Ideal) ⟨2, ![M, N]⟩ .f32 0x00000000#32) (ix2 p q)
      = ∑ k : Fin K, lhs (ix2 p k) * rhs (ix2 k q) := by
  obtain ⟨lc, rc, ln, rn, lb, rb, wf⟩ := d
  dsimp only at hlc hrc hln hrn hlb hrb
  subst hlc hrc hln hrn hlb hrb
  exact apply_dims wf prec lhs rhs p q

/-- A one-row matrix spread down the rows, at entry (p, k): the row's entry (0, k). -/
theorem rowSpread_apply {α : Type} {R C : Nat} (x : (⟨2, ![1, C]⟩ : Shape).Idx → α)
    (h : (⟨2, ![1, C]⟩ : Shape).Broadcasts ⟨2, ![R, C]⟩) (p : Fin R) (k : Fin C) :
    broadcastTo ⟨2, ![R, C]⟩ x h (ix2 p k) = x (ix2 (0 : Fin 1) k) := by
  refine broadcastTo_apply x h (ix2 p k) (ix2 (0 : Fin 1) k) fun a => ?_
  match a with
  | ⟨0, _⟩ => rfl
  | ⟨1, _⟩ =>
    show k.val = if C = 1 then 0 else k.val
    split
    · have := k.isLt; omega
    · rfl

end Cert.Lib.PlainMatmul

end
-- ==== Proof.Spec.lean ====
/-
  The values this layer computes, as functions of whole arrays over the extended reals.

  * `projT h W`: the node features times the transposed weights, entry (p, q) the sum over k of h (p, k) · W (q, k).
  * `projBias h W b`: the same plus the bias row, entry (p, q) that sum plus b (q).
  * `combine m₁ m₂ s`: the self term plus half the sum of the two per-type means, clipped below at zero, entry by entry.
-/
import Idealize.ShloMosaic.PureOps.Ideal.Laws
import Idealize.ShloMosaic.Lib.ValueIdx

noncomputable section

open scoped BigOperators
open Idealize.ShloMosaic Idealize.ShloMosaic.ValueIdx

namespace Cert.Gcn

/-- Node features: 100000 nodes, 128 channels. -/
abbrev SN : Shape := ⟨2, ![100000, 128]⟩
/-- A weight matrix: 128 output channels by 128 input channels. -/
abbrev SW : Shape := ⟨2, ![128, 128]⟩

/-- Entry (p, q) of h · Wᵀ. -/
def projAt (h : SN.Idx → EReal) (W : SW.Idx → EReal) (p : Fin 100000) (q : Fin 128) : EReal :=
  ∑ k : Fin 128, h (ix2 p k) * W (ix2 q k)

/-- h · Wᵀ as a whole array. -/
def projT (h : SN.Idx → EReal) (W : SW.Idx → EReal) : SN.Idx → EReal := fun j => projAt h W (j 0) (j 1)

theorem projT_apply (h : SN.Idx → EReal) (W : SW.Idx → EReal) (p : Fin 100000) (q : Fin 128) :
    projT h W (ix2 p q) = ∑ k : Fin 128, h (ix2 p k) * W (ix2 q k) := rfl

/-- h · Wᵀ plus the bias on every row. -/
def projBias (h : SN.Idx → EReal) (W : SW.Idx → EReal) (b : (⟨1, ![128]⟩ : Shape).Idx → EReal) : SN.Idx → EReal :=
  fun j => projAt h W (j 0) (j 1) + b (ix1 (j 1))

theorem projBias_apply (h : SN.Idx → EReal) (W : SW.Idx → EReal) (b : (⟨1, ![128]⟩ : Shape).Idx → EReal)
    (p : Fin 100000) (q : Fin 128) :
    projBias h W b (ix2 p q) = (∑ k : Fin 128, h (ix2 p k) * W (ix2 q k)) + b (ix1 q) := rfl

/-- The layer's last step, entry by entry: max (s + (m₁ + m₂) · ½, 0), the half and the zero as their float words. -/
def combine (m₁ m₂ s : SN.Idx → EReal) : SN.Idx → EReal :=
  fun j => max (s j + (m₁ j + m₂ j) * Ideal.ofBits .f32 0x3F000000#32) (Ideal.ofBits .f32 0x00000000#32)

end Cert.Gcn

end
-- ==== Proof.Region0.lean ====
/-
  Region 0 (the three projections), read as values at the ideal instance, for any contents `V` the region is entered from.

  Grid point t loads rows 5000·t … 5000·t + 4999 of the node features and the three weight matrices and the bias row whole, and
  writes back rows 5000·t … of each output. Entry (p, q) of the block it writes is the sum over k of h (5000·t + p, k) · W (q, k)
  (the bf16 casts change nothing at the ideal values, the transposed weight read at (k, q) is W (q, k), and the matrix product
  into the zero splat is the plain sum), for the third output plus the bias entry q. The twenty blocks tile the 100000 rows, so each
  output array ends holding the whole product.
-/
import proofs.«156796_j46222438039793_1_alg».proof.Proof.Gen.KernelIdeal.Frame
import proofs.«156796_j46222438039793_1_alg».proof.Proof.LibPlainMatmul
import proofs.«156796_j46222438039793_1_alg».proof.Proof.Spec
import Idealize.ShloMosaic.Lib.Pipeline.Value
import Idealize.ShloMosaic.Lib.ValueIdx
import Idealize.ShloMosaic.Lib.ValueLayout

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Proj

open Cert.KernelIdeal Cert.KernelIdeal.Gen Cert.Gcn

theorem hz : (![0, 0] : Fin 2 → Nat) = fun _ => 0 := funext fun a => by fin_cases a <;> rfl

/-! ## The payloads at an entry -/

/-- A projection's payload at (p, q): the sum over k of the feature block's (p, k) times the weight's (q, k). -/
theorem pay2_apply (x0 : Vec Ideal S5000x128 .f32) (x1 : Vec Ideal S128x128 .f32) (p : Fin 5000) (q : Fin 128) :
    k0_pay2 x0 x1 (ix2 p q) = ∑ k : Fin 128, x0 (ix2 p k) * x1 (ix2 q k) := by
  unfold k0_pay2 k0_pay1
  simp only [matmul]
  rw [Cert.Lib.PlainMatmul.apply _ rfl rfl rfl rfl rfl rfl]
  refine Finset.sum_congr rfl fun k _ => ?_
  rw [transpose_ix2_apply]
  rfl

theorem pay3_apply (x0 : Vec Ideal S5000x128 .f32) (x1 : Vec Ideal S128x128 .f32) (p : Fin 5000) (q : Fin 128) :
    k0_pay3 x0 x1 (ix2 p q) = ∑ k : Fin 128, x0 (ix2 p k) * x1 (ix2 q k) := by
  unfold k0_pay3 k0_pay1
  simp only [matmul]
  rw [Cert.Lib.PlainMatmul.apply _ rfl rfl rfl rfl rfl rfl]
  refine Finset.sum_congr rfl fun k _ => ?_
  rw [transpose_ix2_apply]
  rfl

/-- The third payload adds the bias row's entry q. -/
theorem pay4_apply (x0 : Vec Ideal S5000x128 .f32) (x1 : Vec Ideal S128x128 .f32) (b : Vec Ideal S1x128 .f32) (p : Fin 5000) (q : Fin 128) :
    k0_pay4 x0 x1 b (ix2 p q) = (∑ k : Fin 128, x0 (ix2 p k) * x1 (ix2 q k)) + b (ix2 (0 : Fin 1) q) := by
  unfold k0_pay4 k0_pay1
  simp only [matmul]
  rw [addf_apply, Cert.Lib.PlainMatmul.apply _ rfl rfl rfl rfl rfl rfl, Cert.Lib.PlainMatmul.rowSpread_apply, shapeCast_self]
  congr 1
  refine Finset.sum_congr rfl fun k _ => ?_
  rw [transpose_ix2_apply]
  rfl

/-! ## The index maps over the grid -/

/-- The feature window and the three output windows move together down the rows; every other coordinate of every window is 0. -/
theorem idx_facts : ∀ t : Fin cfg0.N,
    win0_0.index t (0 : Fin 2) = win0_5.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_6.index t (0 : Fin 2) = win0_5.index t (0 : Fin 2) ∧ win0_7.index t (0 : Fin 2) = win0_5.index t (0 : Fin 2)
    ∧ win0_5.index t (1 : Fin 2) = 0 ∧ win0_6.index t (1 : Fin 2) = 0 ∧ win0_7.index t (1 : Fin 2) = 0
    ∧ win0_5.index t (0 : Fin 2) ≤ 19 :=
  (by decide +kernel : ∀ t : Fin grid0.N, _)

/-- Every block of rows is some point's. -/
theorem idx_onto : ∀ q0 : Fin 20, ∃ t : Fin cfg0.N, win0_5.index t (0 : Fin 2) = q0.val :=
  (by decide +kernel : ∀ q0 : Fin 20, ∃ t : Fin grid0.N, win0_5.index t (0 : Fin 2) = q0.val)

section Values
variable (V : (c : Dev nD) → (b : Ref sig .tc) → Buf (Elt Ideal) ((c : Thread nD τ).loc b))

/-! ## The input blocks read off the arrays -/

/-- The feature block at point t, entry (p, k): the features' entry (5000·i + p, k), i the point's row-block index. -/
theorem hblk_apply (c : Dev nD) (t : Fin cfg0.N) (p : Fin 5000) (k : Fin 128) (P : Fin 100000)
    (hP : P.val = win0_5.index t (0 : Fin 2) * 5000 + p.val) :
    (iblk0 V c 0 t : Vec Ideal S5000x128 .f32) (ix2 p k) = (V c main_arg0 : S100000x128.Idx → EReal) (ix2 P k) := by
  obtain ⟨e0, e1, -⟩ := idx_facts t
  show V c main_arg0 (((cfg0.win 0).blk t).view.emb (ix2 p k)) = _
  refine congrArg (V c main_arg0) (funext fun a => Fin.ext ?_)
  match a with
  | ⟨0, _⟩ => show win0_0.index t (0 : Fin 2) * 5000 + 1 * p.val = P.val; omega
  | ⟨1, _⟩ => show win0_0.index t (1 : Fin 2) * 128 + 1 * k.val = k.val; omega

/-- A weight window's one block is the whole matrix. -/
theorem wblk1_apply (c : Dev nD) (t : Fin cfg0.N) (q k : Fin 128) :
    (iblk0 V c 1 t : Vec Ideal S128x128 .f32) (ix2 q k) = (V c main_arg5 : S128x128.Idx → EReal) (ix2 q k) := by
  obtain ⟨-, -, e2, e3, -⟩ := idx_facts t
  show V c main_arg5 (((cfg0.win 1).blk t).view.emb (ix2 q k)) = _
  refine congrArg (V c main_arg5) (funext fun a => Fin.ext ?_)
  match a with
  | ⟨0, _⟩ => show win0_1.index t (0 : Fin 2) * 128 + 1 * q.val = q.val; omega
  | ⟨1, _⟩ => show win0_1.index t (1 : Fin 2) * 128 + 1 * k.val = k.val; omega

theorem wblk2_apply (c : Dev nD) (t : Fin cfg0.N) (q k : Fin 128) :
    (iblk0 V c 2 t : Vec Ideal S128x128 .f32) (ix2 q k) = (V c main_arg6 : S128x128.Idx → EReal) (ix2 q k) := by
  obtain ⟨-, -, -, -, e4, e5, -⟩ := idx_facts t
  show V c main_arg6 (((cfg0.win 2).blk t).view.emb (ix2 q k)) = _
  refine congrArg (V c main_arg6) (funext fun a => Fin.ext ?_)
  match a with
  | ⟨0, _⟩ => show win0_2.index t (0 : Fin 2) * 128 + 1 * q.val = q.val; omega
  | ⟨1, _⟩ => show win0_2.index t (1 : Fin 2) * 128 + 1 * k.val = k.val; omega

theorem wblk3_apply (c : Dev nD) (t : Fin cfg0.N) (q k : Fin 128) :
    (iblk0 V c 3 t : Vec Ideal S128x128 .f32) (ix2 q k) = (V c main_arg7 : S128x128.Idx → EReal) (ix2 q k) := by
  obtain ⟨-, -, -, -, -, -, e6, e7, -⟩ := idx_facts t
  show V c main_arg7 (((cfg0.win 3).blk t).view.emb (ix2 q k)) = _
  refine congrArg (V c main_arg7) (funext fun a => Fin.ext ?_)
  match a with
  | ⟨0, _⟩ => show win0_3.index t (0 : Fin 2) * 128 + 1 * q.val = q.val; omega
  | ⟨1, _⟩ => show win0_3.index t (1 : Fin 2) * 128 + 1 * k.val = k.val; omega

/-- The bias window's one block is the whole one-row array. -/
theorem bblk_apply (c : Dev nD) (t : Fin cfg0.N) (q : Fin 128) :
    (iblk0 V c 4 t : Vec Ideal S1x128 .f32) (ix2 (0 : Fin 1) q) = (V c main_v0 : S1x128.Idx → EReal) (ix2 (0 : Fin 1) q) := by
  obtain ⟨-, -, -, -, -, -, -, -, e8, e9, -⟩ := idx_facts t
  show V c main_v0 (((cfg0.win 4).blk t).view.emb (ix2 (0 : Fin 1) q)) = _
  refine congrArg (V c main_v0) (funext fun a => Fin.ext ?_)
  match a with
  | ⟨0, _⟩ => show win0_4.index t (0 : Fin 2) * 1 + 1 * 0 = 0; omega
  | ⟨1, _⟩ => show win0_4.index t (1 : Fin 2) * 128 + 1 * q.val = q.val; omega

/-! ## What each point writes back -/

/-- Point t's block of the first projection is block t of h · W₁ᵀ. -/
theorem flushed5_eq (c : Dev nD) (t : Fin cfg0.N) :
    (dat0 V c).flushed 5 t = ((cfg0.win 5).blk t).view.read (Elt Ideal) (projT (V c main_arg0) (V c main_arg5)) := by
  show (cfg0.win 5).cut (grid0.coords t) ((dat0 V c).after 5 t) = _
  rw [after0_5]
  unfold out0_5
  rw [View.canon_unit_zero hz]
  simp only [View.ld_unit_zero (S := S5000x128) hz, View.ld_unit_zero (S := S128x128) hz]
  obtain ⟨-, -, -, -, -, -, -, -, -, -, -, -, e12, -, -, e15⟩ := idx_facts t
  show (k0_pay2 (iblk0 V c 0 t) (iblk0 V c 1 t) : S5000x128.Idx → EReal)
    = fun y : S5000x128.Idx => projT (V c main_arg0) (V c main_arg5) (((cfg0.win 5).blk t).view.emb y)
  funext y
  obtain ⟨p, q, rfl⟩ : ∃ (p : Fin 5000) (q : Fin 128), y = ix2 p q := ⟨y 0, y 1, eq_ix2 y⟩
  have hp : p.val < 5000 := p.isLt
  have hemb : ((cfg0.win 5).blk t).view.emb (ix2 p q) = ix2 (⟨win0_5.index t (0 : Fin 2) * 5000 + p.val, by omega⟩ : Fin 100000) q := by
    funext a; apply Fin.ext
    match a with
    | ⟨0, _⟩ => show win0_5.index t (0 : Fin 2) * 5000 + 1 * p.val = win0_5.index t (0 : Fin 2) * 5000 + p.val; omega
    | ⟨1, _⟩ => show win0_5.index t (1 : Fin 2) * 128 + 1 * q.val = q.val; omega
  rw [hemb, projT_apply, pay2_apply]
  refine Finset.sum_congr rfl fun k _ => ?_
  rw [hblk_apply V c t p k ⟨win0_5.index t (0 : Fin 2) * 5000 + p.val, by omega⟩ rfl, wblk1_apply V c t q k]

/-- Point t's block of the second projection is block t of h · W₂ᵀ. -/
theorem flushed6_eq (c : Dev nD) (t : Fin cfg0.N) :
    (dat0 V c).flushed 6 t = ((cfg0.win 6).blk t).view.read (Elt Ideal) (projT (V c main_arg0) (V c main_arg6)) := by
  show (cfg0.win 6).cut (grid0.coords t) ((dat0 V c).after 6 t) = _
  rw [after0_6]
  unfold out0_6
  rw [View.canon_unit_zero hz]
  simp only [View.ld_unit_zero (S := S5000x128) hz, View.ld_unit_zero (S := S128x128) hz]
  obtain ⟨-, -, -, -, -, -, -, -, -, -, e10, -, -, e13, -, e15⟩ := idx_facts t
  show (k0_pay3 (iblk0 V c 0 t) (iblk0 V c 2 t) : S5000x128.Idx → EReal)
    = fun y : S5000x128.Idx => projT (V c main_arg0) (V c main_arg6) (((cfg0.win 6).blk t).view.emb y)
  funext y
  obtain ⟨p, q, rfl⟩ : ∃ (p : Fin 5000) (q : Fin 128), y = ix2 p q := ⟨y 0, y 1, eq_ix2 y⟩
  have hp : p.val < 5000 := p.isLt
  have hemb : ((cfg0.win 6).blk t).view.emb (ix2 p q) = ix2 (⟨win0_5.index t (0 : Fin 2) * 5000 + p.val, by omega⟩ : Fin 100000) q := by
    funext a; apply Fin.ext
    match a with
    | ⟨0, _⟩ => show win0_6.index t (0 : Fin 2) * 5000 + 1 * p.val = win0_5.index t (0 : Fin 2) * 5000 + p.val; omega
    | ⟨1, _⟩ => show win0_6.index t (1 : Fin 2) * 128 + 1 * q.val = q.val; omega
  rw [hemb, projT_apply, pay3_apply]
  refine Finset.sum_congr rfl fun k _ => ?_
  rw [hblk_apply V c t p k ⟨win0_5.index t (0 : Fin 2) * 5000 + p.val, by omega⟩ rfl, wblk2_apply V c t q k]

/-- Point t's block of the self term is block t of h · Wₗᵀ plus the bias row (the reshaped bias read at (0, q)). -/
theorem flushed7_eq (c : Dev nD) (t : Fin cfg0.N) :
    (dat0 V c).flushed 7 t = ((cfg0.win 7).blk t).view.read (Elt Ideal)
      (fun j : SN.Idx => projAt (V c main_arg0) (V c main_arg7) (j 0) (j 1) + (V c main_v0 : S1x128.Idx → EReal) (ix2 (0 : Fin 1) (j 1))) := by
  show (cfg0.win 7).cut (grid0.coords t) ((dat0 V c).after 7 t) = _
  rw [after0_7]
  unfold out0_7
  rw [View.canon_unit_zero hz]
  simp only [View.ld_unit_zero (S := S5000x128) hz, View.ld_unit_zero (S := S128x128) hz, View.ld_unit_zero (S := S1x128) hz]
  obtain ⟨-, -, -, -, -, -, -, -, -, -, -, e11, -, -, e14, e15⟩ := idx_facts t
  show (k0_pay4 (iblk0 V c 0 t) (iblk0 V c 3 t) (iblk0 V c 4 t) : S5000x128.Idx → EReal)
    = fun y : S5000x128.Idx => (fun j : SN.Idx => projAt (V c main_arg0) (V c main_arg7) (j 0) (j 1) + (V c main_v0 : S1x128.Idx → EReal) (ix2 (0 : Fin 1) (j 1))) (((cfg0.win 7).blk t).view.emb y)
  funext y
  obtain ⟨p, q, rfl⟩ : ∃ (p : Fin 5000) (q : Fin 128), y = ix2 p q := ⟨y 0, y 1, eq_ix2 y⟩
  have hp : p.val < 5000 := p.isLt
  have hemb : ((cfg0.win 7).blk t).view.emb (ix2 p q) = ix2 (⟨win0_5.index t (0 : Fin 2) * 5000 + p.val, by omega⟩ : Fin 100000) q := by
    funext a; apply Fin.ext
    match a with
    | ⟨0, _⟩ => show win0_7.index t (0 : Fin 2) * 5000 + 1 * p.val = win0_5.index t (0 : Fin 2) * 5000 + p.val; omega
    | ⟨1, _⟩ => show win0_7.index t (1 : Fin 2) * 128 + 1 * q.val = q.val; omega
  rw [hemb, pay4_apply, bblk_apply V c t q]
  show _ = (∑ k : Fin 128, _) + _
  congr 1
  refine Finset.sum_congr rfl fun k _ => ?_
  rw [hblk_apply V c t p k ⟨win0_5.index t (0 : Fin 2) * 5000 + p.val, by omega⟩ rfl, wblk3_apply V c t q k]

/-! ## The blocks tile the rows -/

theorem mem_blk5 (t : Fin cfg0.N) (i : S100000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v1_0).slice (win0_5.rect t)).set ↔ _
  rw [View.set_slice_whole, Rect.mem_set_unit]
  exact Iff.rfl
theorem mem_blk6 (t : Fin cfg0.N) (i : S100000x128.Idx) :
    i ∈ ((cfg0.win 6).blk t).view.set ↔ ∀ a : Fin 2, win0_6.index t a * S5000x128.size a ≤ (i a).val ∧ (i a).val < win0_6.index t a * S5000x128.size a + S5000x128.size a := by
  show i ∈ ((View.whole main_v1_1).slice (win0_6.rect t)).set ↔ _
  rw [View.set_slice_whole, Rect.mem_set_unit]
  exact Iff.rfl
theorem mem_blk7 (t : Fin cfg0.N) (i : S100000x128.Idx) :
    i ∈ ((cfg0.win 7).blk t).view.set ↔ ∀ a : Fin 2, win0_7.index t a * S5000x128.size a ≤ (i a).val ∧ (i a).val < win0_7.index t a * S5000x128.size a + S5000x128.size a := by
  show i ∈ ((View.whole main_v1_2).slice (win0_7.rect t)).set ↔ _
  rw [View.set_slice_whole, Rect.mem_set_unit]
  exact Iff.rfl

/-- Row r of an output lies in the block of the point whose row-block index is r / 5000. -/
theorem cover5 (i : S100000x128.Idx) : ∃ t : Fin cfg0.N, (cfg0.win 5).flush t = true ∧ i ∈ ((cfg0.win 5).blk t).view.set := by
  have hi0 : (i 0).val < 100000 := (i 0).isLt
  have hi1 : (i 1).val < 128 := (i 1).isLt
  obtain ⟨t, ht⟩ := idx_onto ⟨(i 0).val / 5000, by omega⟩
  have ht' : win0_5.index t (0 : Fin 2) = (i 0).val / 5000 := ht
  obtain ⟨-, -, -, -, -, -, -, -, -, -, -, -, e12, -, -, -⟩ := idx_facts t
  refine ⟨t, flush0_5 t, ?_⟩
  rw [mem_blk5]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 128 ≤ (i 1).val ∧ (i 1).val < win0_5.index t (1 : Fin 2) * 128 + 128; omega
theorem cover6 (i : S100000x128.Idx) : ∃ t : Fin cfg0.N, (cfg0.win 6).flush t = true ∧ i ∈ ((cfg0.win 6).blk t).view.set := by
  have hi0 : (i 0).val < 100000 := (i 0).isLt
  have hi1 : (i 1).val < 128 := (i 1).isLt
  obtain ⟨t, ht⟩ := idx_onto ⟨(i 0).val / 5000, by omega⟩
  have ht' : win0_5.index t (0 : Fin 2) = (i 0).val / 5000 := ht
  obtain ⟨-, -, -, -, -, -, -, -, -, -, e10, -, -, e13, -, -⟩ := idx_facts t
  refine ⟨t, flush0_6 t, ?_⟩
  rw [mem_blk6]
  intro a
  match a with
  | ⟨0, _⟩ => show win0_6.index t (0 : Fin 2) * 5000 ≤ (i 0).val ∧ (i 0).val < win0_6.index t (0 : Fin 2) * 5000 + 5000; omega
  | ⟨1, _⟩ => show win0_6.index t (1 : Fin 2) * 128 ≤ (i 1).val ∧ (i 1).val < win0_6.index t (1 : Fin 2) * 128 + 128; omega
theorem cover7 (i : S100000x128.Idx) : ∃ t : Fin cfg0.N, (cfg0.win 7).flush t = true ∧ i ∈ ((cfg0.win 7).blk t).view.set := by
  have hi0 : (i 0).val < 100000 := (i 0).isLt
  have hi1 : (i 1).val < 128 := (i 1).isLt
  obtain ⟨t, ht⟩ := idx_onto ⟨(i 0).val / 5000, by omega⟩
  have ht' : win0_5.index t (0 : Fin 2) = (i 0).val / 5000 := ht
  obtain ⟨-, -, -, -, -, -, -, -, -, -, -, e11, -, -, e14, -⟩ := idx_facts t
  refine ⟨t, flush0_7 t, ?_⟩
  rw [mem_blk7]
  intro a
  match a with
  | ⟨0, _⟩ => show win0_7.index t (0 : Fin 2) * 5000 ≤ (i 0).val ∧ (i 0).val < win0_7.index t (0 : Fin 2) * 5000 + 5000; omega
  | ⟨1, _⟩ => show win0_7.index t (1 : Fin 2) * 128 ≤ (i 1).val ∧ (i 1).val < win0_7.index t (1 : Fin 2) * 128 + 128; omega

/-! ## The three arrays after the region -/

theorem final5 (c : Dev nD) : (dat0 V c).arrAt 5 cfg0.N = projT (V c main_arg0) (V c main_arg5) :=
  (dat0 V c).arrAt_eq_of_cover 5 _ (fun t _ => flushed5_eq V c t) cover5
theorem final6 (c : Dev nD) : (dat0 V c).arrAt 6 cfg0.N = projT (V c main_arg0) (V c main_arg6) :=
  (dat0 V c).arrAt_eq_of_cover 6 _ (fun t _ => flushed6_eq V c t) cover6
theorem final7 (c : Dev nD) : (dat0 V c).arrAt 7 cfg0.N
    = fun j : SN.Idx => projAt (V c main_arg0) (V c main_arg7) (j 0) (j 1) + (V c main_v0 : S1x128.Idx → EReal) (ix2 (0 : Fin 1) (j 1)) :=
  (dat0 V c).arrAt_eq_of_cover 7 _ (fun t _ => flushed7_eq V c t) cover7

end Values

end Cert.KernelIdeal.Proj

end
-- ==== Proof.Region1.lean ====
/-
  Region 1 (the combine step), read as values at the ideal instance, for any contents `V` the region is entered from.

  Grid point t loads rows 5000·t … of the two per-type means and of the self term and writes back the same rows of the result:
  entry by entry max (s + (m₁ + m₂) · ½, 0). All four windows move together, so the block written at point t is block t of that
  entrywise function of the three whole arrays, and the twenty blocks tile the rows.
-/
import proofs.«156796_j46222438039793_1_alg».proof.Proof.Gen.KernelIdeal.Frame
import proofs.«156796_j46222438039793_1_alg».proof.Proof.Spec
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Comb

open Cert.KernelIdeal Cert.KernelIdeal.Gen Cert.Gcn

theorem hz : (![0, 0] : Fin 2 → Nat) = fun _ => 0 := funext fun a => by fin_cases a <;> rfl

/-- The payload at an entry: the self term plus half the sum of the two means, clipped below at zero. -/
theorem pay1_apply (x0 x1 x2 : Vec Ideal S5000x128 .f32) (y : S5000x128.Idx) :
    k1_pay1 x0 x1 x2 y = max (x2 y + (x0 y + x1 y) * Ideal.ofBits .f32 0x3F000000#32) (Ideal.ofBits .f32 0x00000000#32) := by
  unfold k1_pay1
  simp only [shapeCast_self]
  rfl

/-- The four windows move together down the rows; their column-block index is 0. -/
theorem idx_facts : ∀ t : Fin cfg1.N,
    win1_0.index t (0 : Fin 2) = win1_3.index t (0 : Fin 2) ∧ win1_0.index t (1 : Fin 2) = win1_3.index t (1 : Fin 2)
    ∧ win1_1.index t (0 : Fin 2) = win1_3.index t (0 : Fin 2) ∧ win1_1.index t (1 : Fin 2) = win1_3.index t (1 : Fin 2)
    ∧ win1_2.index t (0 : Fin 2) = win1_3.index t (0 : Fin 2) ∧ win1_2.index t (1 : Fin 2) = win1_3.index t (1 : Fin 2)
    ∧ win1_3.index t (1 : Fin 2) = 0 ∧ win1_3.index t (0 : Fin 2) ≤ 19 :=
  (by decide +kernel : ∀ t : Fin grid1.N, _)

/-- Every block of rows is some point's. -/
theorem idx_onto : ∀ q0 : Fin 20, ∃ t : Fin cfg1.N, win1_3.index t (0 : Fin 2) = q0.val :=
  (by decide +kernel : ∀ q0 : Fin 20, ∃ t : Fin grid1.N, win1_3.index t (0 : Fin 2) = q0.val)

section Values
variable (V : (c : Dev nD) → (b : Ref sig .tc) → Buf (Elt Ideal) ((c : Thread nD τ).loc b))

/-- Each input block at point t, read at a block index, is its array read where the result's block at t puts that index. -/
theorem blk0_apply (c : Dev nD) (t : Fin cfg1.N) (y : S5000x128.Idx) :
    (iblk1 V c 0 t : Vec Ideal S5000x128 .f32) y = (V c main_v20 : S100000x128.Idx → EReal) (((cfg1.win 3).blk t).view.emb y) := by
  obtain ⟨e0, e1, -⟩ := idx_facts t
  show V c main_v20 (((cfg1.win 0).blk t).view.emb y) = _
  refine congrArg (V c main_v20) (funext fun a => Fin.ext ?_)
  match a with
  | ⟨0, _⟩ => show win1_0.index t (0 : Fin 2) * 5000 + 1 * (y 0).val = win1_3.index t (0 : Fin 2) * 5000 + 1 * (y 0).val; omega
  | ⟨1, _⟩ => show win1_0.index t (1 : Fin 2) * 128 + 1 * (y 1).val = win1_3.index t (1 : Fin 2) * 128 + 1 * (y 1).val; omega
theorem blk1_apply (c : Dev nD) (t : Fin cfg1.N) (y : S5000x128.Idx) :
    (iblk1 V c 1 t : Vec Ideal S5000x128 .f32) y = (V c main_v39 : S100000x128.Idx → EReal) (((cfg1.win 3).blk t).view.emb y) := by
  obtain ⟨-, -, e2, e3, -⟩ := idx_facts t
  show V c main_v39 (((cfg1.win 1).blk t).view.emb y) = _
  refine congrArg (V c main_v39) (funext fun a => Fin.ext ?_)
  match a with
  | ⟨0, _⟩ => show win1_1.index t (0 : Fin 2) * 5000 + 1 * (y 0).val = win1_3.index t (0 : Fin 2) * 5000 + 1 * (y 0).val; omega
  | ⟨1, _⟩ => show win1_1.index t (1 : Fin 2) * 128 + 1 * (y 1).val = win1_3.index t (1 : Fin 2) * 128 + 1 * (y 1).val; omega
theorem blk2_apply (c : Dev nD) (t : Fin cfg1.N) (y : S5000x128.Idx) :
    (iblk1 V c 2 t : Vec Ideal S5000x128 .f32) y = (V c main_v1_2 : S100000x128.Idx → EReal) (((cfg1.win 3).blk t).view.emb y) := by
  obtain ⟨-, -, -, -, e4, e5, -⟩ := idx_facts t
  show V c main_v1_2 (((cfg1.win 2).blk t).view.emb y) = _
  refine congrArg (V c main_v1_2) (funext fun a => Fin.ext ?_)
  match a with
  | ⟨0, _⟩ => show win1_2.index t (0 : Fin 2) * 5000 + 1 * (y 0).val = win1_3.index t (0 : Fin 2) * 5000 + 1 * (y 0).val; omega
  | ⟨1, _⟩ => show win1_2.index t (1 : Fin 2) * 128 + 1 * (y 1).val = win1_3.index t (1 : Fin 2) * 128 + 1 * (y 1).val; omega

/-- Point t's block of the result is block t of the entrywise combination of the three whole arrays. -/
theorem flushed3_eq (c : Dev nD) (t : Fin cfg1.N) :
    (dat1 V c).flushed 3 t = ((cfg1.win 3).blk t).view.read (Elt Ideal) (combine (V c main_v20) (V c main_v39) (V c main_v1_2)) := by
  show (cfg1.win 3).cut (grid1.coords t) ((dat1 V c).after 3 t) = _
  rw [after1_3]
  unfold out1_3
  rw [View.canon_unit_zero hz]
  simp only [View.ld_unit_zero (S := S5000x128) hz]
  show (k1_pay1 (iblk1 V c 0 t) (iblk1 V c 1 t) (iblk1 V c 2 t) : S5000x128.Idx → EReal)
    = fun y : S5000x128.Idx => combine (V c main_v20) (V c main_v39) (V c main_v1_2) (((cfg1.win 3).blk t).view.emb y)
  funext y
  rw [pay1_apply, blk0_apply V c t y, blk1_apply V c t y, blk2_apply V c t y]
  rfl

theorem mem_blk3 (t : Fin cfg1.N) (i : S100000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v40).slice (win1_3.rect t)).set ↔ _
  rw [View.set_slice_whole, Rect.mem_set_unit]
  exact Iff.rfl

/-- Row r of the result lies in the block of the point whose row-block index is r / 5000. -/
theorem cover3 (i : S100000x128.Idx) : ∃ t : Fin cfg1.N, (cfg1.win 3).flush t = true ∧ i ∈ ((cfg1.win 3).blk t).view.set := by
  have hi0 : (i 0).val < 100000 := (i 0).isLt
  have hi1 : (i 1).val < 128 := (i 1).isLt
  obtain ⟨t, ht⟩ := idx_onto ⟨(i 0).val / 5000, by omega⟩
  have ht' : win1_3.index t (0 : Fin 2) = (i 0).val / 5000 := ht
  obtain ⟨-, -, -, -, -, -, e6, -⟩ := idx_facts t
  refine ⟨t, flush1_3 t, ?_⟩
  rw [mem_blk3]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 128 ≤ (i 1).val ∧ (i 1).val < win1_3.index t (1 : Fin 2) * 128 + 128; omega

/-- The result array after the region. -/
theorem final3 (c : Dev nD) : (dat1 V c).arrAt 3 cfg1.N = combine (V c main_v20) (V c main_v39) (V c main_v1_2) :=
  (dat1 V c).arrAt_eq_of_cover 3 _ (fun t _ => flushed3_eq V c t) cover3

end Values

end Cert.KernelIdeal.Comb

end
-- ==== Proof.KernelWhole.lean ====
/-
  The idealized kernel's whole run as one value.

  Between the two regions the host computes, for each edge type, the mean over incoming edges of the gathered projection rows
  (`segMean`: a gather by the wrapped source indices, a scatter-add by the destination indices into zeros, divided by the
  in-degree clipped below at one). Region 0 leaves the three projections (Region0), the host lines leave the two means of
  them, and region 1 combines the means with the self term (Region1). Read back through the boundaries of the frame's run, the
  result array ends at `layerOut` of the argument arrays.
-/
import proofs.«156796_j46222438039793_1_alg».proof.Proof.KernelRunOut
import proofs.«156796_j46222438039793_1_alg».proof.Proof.Region0
import proofs.«156796_j46222438039793_1_alg».proof.Proof.Region1
import Idealize.ShloMosaic.Lib.StableHlo.Run

set_option maxRecDepth 16384

noncomputable section

open Idealize.ShloMosaic Idealize.ShloMosaic.TcCoe Idealize.SL.Sem Idealize.ShloMosaic.StableHlo Idealize.ShloMosaic.ValueIdx

namespace Cert.KernelIdeal.Whole

open Cert.KernelIdeal Cert.KernelIdeal.Gen Cert.Gcn

/-- The mean over incoming edges, as the host lines compute it: rows of `z` gathered at the source indices (a negative index
    wrapped by the row count), summed into the destination rows, each row divided by max (in-degree, 1). -/
def segMean (z : FVec Ideal S100000x128 .f32) (src dst : (⟨S500000, .i32⟩ : BufTy).Contents (Elt Ideal)) : FVec Ideal S100000x128 .f32 :=
  Host.divf
    (Host.scatterAdd scatter_S100000x128_S500000x1_S500000x128_1_0_0_1
      (broadcastInDim S100000x128 ![] bcast_S_S100000x128 (constant (F := Ideal) S_ .f32 0x00000000#32))
      (broadcastInDim S500000x1 ![0] bcast_S500000_S500000x1_0 dst)
      (Host.gather gather_S100000x128_S500000x1_S500000x128_1_0_n_n_0_1_1128 z
        (broadcastInDim S500000x1 ![0] bcast_S500000_S500000x1_0
          (select (cmpi .slt src (broadcastInDim S500000 ![] bcast_S_S500000 (constantI S_ 32 0#32)))
            (addi src (broadcastInDim S500000 ![] bcast_S_S500000 (constantI S_ 32 100000#32))) src))))
    (broadcastInDim S100000x128 ![0, 1] bcast_S100000x1_S100000x128_0_1
      (broadcastInDim S100000x1 ![0] bcast_S100000_S100000x1_0
        (maximumf
          (Host.scatterAdd scatter_S100000_S500000x1_S500000_n_0_0_1
            (broadcastInDim S100000 ![] bcast_S_S100000 (constant (F := Ideal) S_ .f32 0x00000000#32))
            (broadcastInDim S500000x1 ![0] bcast_S500000_S500000x1_0 dst)
            (broadcastInDim S500000 ![] bcast_S_S500000 (constant (F := Ideal) S_ .f32 0x3F800000#32)))
          (broadcastInDim S100000 ![] bcast_S_S100000 (constant (F := Ideal) S_ .f32 0x3F800000#32)))))

/-- The layer's output as a function of the argument arrays. -/
def layerOut (h : FVec Ideal S100000x128 .f32) (s1 d1 s2 d2 : (⟨S500000, .i32⟩ : BufTy).Contents (Elt Ideal))
    (W1 W2 Wl : FVec Ideal S128x128 .f32) (bl : FVec Ideal S128 .f32) : FVec Ideal S100000x128 .f32 :=
  combine (segMean (projT h W1) s1 d1) (segMean (projT h W2) s2 d2)
    (fun j : SN.Idx => projAt h Wl (j 0) (j 1) + (shapeCast S1x128 bl shapeCasts_S128_S1x128 : S1x128.Idx → EReal) (ix2 (0 : Fin 1) (j 1)))

variable (m : (ℓ : Loc nD τ sig) → Buf (Elt Ideal) ℓ) (ρ : Dev nD → PrngReg)

/-! ## Region 0's entry: the arguments as launched, the bias reshaped to one row -/

theorem V1_v0 (c : Dev nD) : V1 m ρ c main_v0 = shapeCast S1x128 (m ((c : Thread nD τ).loc main_arg8)) shapeCasts_S128_S1x128 := by
  show StableHlo.after hostOps0 (W0 m ρ c) (Proc.devRef .tc main_v0) = _
  after_results
  rfl
theorem V1_arg0 (c : Dev nD) : V1 m ρ c main_arg0 = m ((c : Thread nD τ).loc main_arg0) := by
  show StableHlo.after hostOps0 (W0 m ρ c) (Proc.devRef .tc main_arg0) = _
  after_results
theorem V1_arg5 (c : Dev nD) : V1 m ρ c main_arg5 = m ((c : Thread nD τ).loc main_arg5) := by
  show StableHlo.after hostOps0 (W0 m ρ c) (Proc.devRef .tc main_arg5) = _
  after_results
theorem V1_arg6 (c : Dev nD) : V1 m ρ c main_arg6 = m ((c : Thread nD τ).loc main_arg6) := by
  show StableHlo.after hostOps0 (W0 m ρ c) (Proc.devRef .tc main_arg6) = _
  after_results
theorem V1_arg7 (c : Dev nD) : V1 m ρ c main_arg7 = m ((c : Thread nD τ).loc main_arg7) := by
  show StableHlo.after hostOps0 (W0 m ρ c) (Proc.devRef .tc main_arg7) = _
  after_results
theorem W1_arg1 (c : Dev nD) : W1 m ρ c (Proc.devRef .tc main_arg1) = m ((c : Thread nD τ).loc main_arg1) := by
  show StableHlo.after hostOps0 (W0 m ρ c) (Proc.devRef .tc main_arg1) = _
  after_results
theorem W1_arg2 (c : Dev nD) : W1 m ρ c (Proc.devRef .tc main_arg2) = m ((c : Thread nD τ).loc main_arg2) := by
  show StableHlo.after hostOps0 (W0 m ρ c) (Proc.devRef .tc main_arg2) = _
  after_results
theorem W1_arg3 (c : Dev nD) : W1 m ρ c (Proc.devRef .tc main_arg3) = m ((c : Thread nD τ).loc main_arg3) := by
  show StableHlo.after hostOps0 (W0 m ρ c) (Proc.devRef .tc main_arg3) = _
  after_results
theorem W1_arg4 (c : Dev nD) : W1 m ρ c (Proc.devRef .tc main_arg4) = m ((c : Thread nD τ).loc main_arg4) := by
  show StableHlo.after hostOps0 (W0 m ρ c) (Proc.devRef .tc main_arg4) = _
  after_results

/-! ## Region 0's exit -/

theorem W2_z1 (c : Dev nD) : W2 m ρ c (Proc.devRef .tc main_v1_0)
    = projT (m ((c : Thread nD τ).loc main_arg0)) (m ((c : Thread nD τ).loc main_arg5)) :=
  (W2_arr m ρ c 5).trans ((Cert.KernelIdeal.Proj.final5 (V1 m ρ) c).trans (by rw [V1_arg0, V1_arg5]))
theorem W2_z2 (c : Dev nD) : W2 m ρ c (Proc.devRef .tc main_v1_1)
    = projT (m ((c : Thread nD τ).loc main_arg0)) (m ((c : Thread nD τ).loc main_arg6)) :=
  (W2_arr m ρ c 6).trans ((Cert.KernelIdeal.Proj.final6 (V1 m ρ) c).trans (by rw [V1_arg0, V1_arg6]))
theorem W2_self (c : Dev nD) : W2 m ρ c (Proc.devRef .tc main_v1_2)
    = fun j : SN.Idx => projAt (m ((c : Thread nD τ).loc main_arg0)) (m ((c : Thread nD τ).loc main_arg7)) (j 0) (j 1)
        + (shapeCast S1x128 (m ((c : Thread nD τ).loc main_arg8)) shapeCasts_S128_S1x128 : S1x128.Idx → EReal) (ix2 (0 : Fin 1) (j 1)) :=
  (W2_arr m ρ c 7).trans ((Cert.KernelIdeal.Proj.final7 (V1 m ρ) c).trans (by rw [V1_arg0, V1_arg7, V1_v0]))
theorem W2_arg1 (c : Dev nD) : W2 m ρ c (Proc.devRef .tc main_arg1) = m ((c : Thread nD τ).loc main_arg1) :=
  (W2_of_ne m ρ c main_arg1 (by decide)).trans (W1_arg1 m ρ c)
theorem W2_arg2 (c : Dev nD) : W2 m ρ c (Proc.devRef .tc main_arg2) = m ((c : Thread nD τ).loc main_arg2) :=
  (W2_of_ne m ρ c main_arg2 (by decide)).trans (W1_arg2 m ρ c)
theorem W2_arg3 (c : Dev nD) : W2 m ρ c (Proc.devRef .tc main_arg3) = m ((c : Thread nD τ).loc main_arg3) :=
  (W2_of_ne m ρ c main_arg3 (by decide)).trans (W1_arg3 m ρ c)
theorem W2_arg4 (c : Dev nD) : W2 m ρ c (Proc.devRef .tc main_arg4) = m ((c : Thread nD τ).loc main_arg4) :=
  (W2_of_ne m ρ c main_arg4 (by decide)).trans (W1_arg4 m ρ c)

/-! ## Region 1's entry: the host lines between the regions -/

set_option maxHeartbeats 4000000 in
theorem V3_m1 (c : Dev nD) : V3 m ρ c main_v20
    = segMean (projT (m ((c : Thread nD τ).loc main_arg0)) (m ((c : Thread nD τ).loc main_arg5)))
        (m ((c : Thread nD τ).loc main_arg1)) (m ((c : Thread nD τ).loc main_arg2)) := by
  have key : StableHlo.after hostOps1 (W2 m ρ c) (Proc.devRef .tc main_v20)
      = segMean (W2 m ρ c (Proc.devRef .tc main_v1_0)) (W2 m ρ c (Proc.devRef .tc main_arg1)) (W2 m ρ c (Proc.devRef .tc main_arg2)) := by
    generalize W2 m ρ c = W
    after_results_simp
    rfl
  rw [W2_z1, W2_arg1, W2_arg2] at key
  exact key

set_option maxHeartbeats 4000000 in
theorem V3_m2 (c : Dev nD) : V3 m ρ c main_v39
    = segMean (projT (m ((c : Thread nD τ).loc main_arg0)) (m ((c : Thread nD τ).loc main_arg6)))
        (m ((c : Thread nD τ).loc main_arg3)) (m ((c : Thread nD τ).loc main_arg4)) := by
  have key : StableHlo.after hostOps1 (W2 m ρ c) (Proc.devRef .tc main_v39)
      = segMean (W2 m ρ c (Proc.devRef .tc main_v1_1)) (W2 m ρ c (Proc.devRef .tc main_arg3)) (W2 m ρ c (Proc.devRef .tc main_arg4)) := by
    generalize W2 m ρ c = W
    after_results_simp
    rfl
  rw [W2_z2, W2_arg3, W2_arg4] at key
  exact key

set_option maxHeartbeats 4000000 in
theorem V3_self (c : Dev nD) : V3 m ρ c main_v1_2
    = fun j : SN.Idx => projAt (m ((c : Thread nD τ).loc main_arg0)) (m ((c : Thread nD τ).loc main_arg7)) (j 0) (j 1)
        + (shapeCast S1x128 (m ((c : Thread nD τ).loc main_arg8)) shapeCasts_S128_S1x128 : S1x128.Idx → EReal) (ix2 (0 : Fin 1) (j 1)) := by
  have key : StableHlo.after hostOps1 (W2 m ρ c) (Proc.devRef .tc main_v1_2) = W2 m ρ c (Proc.devRef .tc main_v1_2) := by
    generalize W2 m ρ c = W
    after_results_simp
  exact key.trans (W2_self m ρ c)

/-! ## The result array -/

theorem out_eq (c : Dev nD) : W4 m ρ c (Proc.devRef .tc main_v40)
    = layerOut (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8)) :=
  (W4_arr m ρ c 3).trans ((Cert.KernelIdeal.Comb.final3 (V3 m ρ) c).trans (by rw [V3_m1, V3_m2, V3_self]; rfl))

/-- Every weakly fair execution of the idealized kernel ends with the result array at `layerOut` of the arguments, the
    arguments unchanged. -/
theorem run : θ_run defs (onTc (τ := τ) (main (F := Ideal))) ⟨m, fun _ => 0, ρ⟩ (fun r => ∀ c : Dev nD,
      r.2.mem ((c.tc : Thread nD τ).loc main_v40)
        = layerOut (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
            (m ((c : Thread nD τ).loc main_arg6)) (m ((c : Thread nD τ).loc main_arg7)) (m ((c : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c).1.trans (out_eq m ρ c), (h c).2⟩) (run_out m ρ)

end Cert.KernelIdeal.Whole

end
-- ==== Proof.RefBridge.lean ====
/-
  The idealized reference computes the same value.

  Its three `dot_general`s of the features with a transposed weight are `projT` (entry (p, q): the sum over k of
  h (p, k) · W (q, k)); its per-type mean is the kernel's host lines' `segMean` applied to that projection — the same
  gather, scatter-adds, clip and quotient, operation for operation; its bias, broadcast from [128] through [1,128] to every row,
  reads b (q) at (p, q), as the kernel's reshaped bias row does at (0, q); and its last lines are the kernel's combine step entry
  by entry: max ((h·Wₗᵀ + b) + (m₁ + m₂) · ½, 0). No law of the extended reals beyond these readings is used.
-/
import proofs.«156796_j46222438039793_1_alg».proof.Proof.Gen.ReferenceIdeal.Read
import proofs.«156796_j46222438039793_1_alg».proof.Proof.KernelWhole
import Idealize.ShloMosaic.Lib.ValueLayout

set_option maxRecDepth 16384

noncomputable section

open scoped BigOperators
open Idealize.ShloMosaic Idealize.ShloMosaic.TcCoe Idealize.SL.Sem Idealize.ShloMosaic.ValueIdx

namespace Cert.ReferenceIdeal.RefValue

open Cert.ReferenceIdeal Cert.ReferenceIdeal.Gen Cert.ReferenceIdeal.Read Cert.Gcn

variable (x0 : (⟨S100000x128, .f32⟩ : BufTy).Contents (Elt Ideal)) (x1 x2 x3 x4 : (⟨S500000, .i32⟩ : BufTy).Contents (Elt Ideal))
  (x5 x6 x7 : (⟨S128x128, .f32⟩ : BufTy).Contents (Elt Ideal)) (x8 : (⟨S128, .f32⟩ : BufTy).Contents (Elt Ideal))

/-! ## The three products -/

theorem dot1_eq : val_main_v1 (F := Ideal) x0 x5 = projT x0 x5 := by
  funext j
  obtain ⟨p, q, rfl⟩ : ∃ (p : Fin 100000) (q : Fin 128), j = ix2 p q := ⟨j 0, j 1, eq_ix2 j⟩
  rw [val_main_v1_apply, projT_apply]
  refine Finset.sum_congr rfl fun k _ => ?_
  rw [val_main_v0_apply]
  have el : lidx_main_v1 (ix2 p q) k = ix2 p k := funext fun a => Fin.ext (by match a with | ⟨0, _⟩ => rfl | ⟨1, _⟩ => rfl)
  have er : idx_main_v0 (ridx_main_v1 (ix2 p q) k) = ix2 q k := funext fun a => Fin.ext (by match a with | ⟨0, _⟩ => rfl | ⟨1, _⟩ => rfl)
  rw [el, er]

theorem dot2_eq : val_main_v22 (F := Ideal) x0 x6 = projT x0 x6 := by
  funext j
  obtain ⟨p, q, rfl⟩ : ∃ (p : Fin 100000) (q : Fin 128), j = ix2 p q := ⟨j 0, j 1, eq_ix2 j⟩
  rw [val_main_v22_apply, projT_apply]
  refine Finset.sum_congr rfl fun k _ => ?_
  rw [val_main_v21_apply]
  have el : lidx_main_v22 (ix2 p q) k = ix2 p k := funext fun a => Fin.ext (by match a with | ⟨0, _⟩ => rfl | ⟨1, _⟩ => rfl)
  have er : idx_main_v21 (ridx_main_v22 (ix2 p q) k) = ix2 q k := funext fun a => Fin.ext (by match a with | ⟨0, _⟩ => rfl | ⟨1, _⟩ => rfl)
  rw [el, er]

theorem dot3_apply (p : Fin 100000) (q : Fin 128) : val_main_v46 (F := Ideal) x0 x7 (ix2 p q) = projAt x0 x7 p q := by
  rw [val_main_v46_apply]
  unfold projAt
  refine Finset.sum_congr rfl fun k _ => ?_
  rw [val_main_v45_apply]
  have el : lidx_main_v46 (ix2 p q) k = ix2 p k := funext fun a => Fin.ext (by match a with | ⟨0, _⟩ => rfl | ⟨1, _⟩ => rfl)
  have er : idx_main_v45 (ridx_main_v46 (ix2 p q) k) = ix2 q k := funext fun a => Fin.ext (by match a with | ⟨0, _⟩ => rfl | ⟨1, _⟩ => rfl)
  rw [el, er]

/-! ## The two means -/

theorem mean1_eq : val_main_v20 (F := Ideal) x0 x1 x2 x5 = Cert.KernelIdeal.Whole.segMean (projT x0 x5) x1 x2 := by
  rw [← dot1_eq x0 x5]
  rfl

theorem mean2_eq : val_main_v41 (F := Ideal) x0 x3 x4 x6 = Cert.KernelIdeal.Whole.segMean (projT x0 x6) x3 x4 := by
  rw [← dot2_eq x0 x6]
  rfl

/-! ## The bias at an entry -/

theorem bias_apply (p : Fin 100000) (q : Fin 128) :
    val_main_v48 (F := Ideal) x8 (ix2 p q)
      = (shapeCast Cert.KernelIdeal.S1x128 x8 Cert.KernelIdeal.Facts₀.shapeCasts_S128_S1x128 : Cert.KernelIdeal.S1x128.Idx → EReal) (ix2 (0 : Fin 1) q) := by
  rw [val_main_v48_apply, val_main_v47_apply, shapeCast_a_1a_apply]
  exact congrArg x8 (funext fun a => Fin.ext (by match a with | ⟨0, _⟩ => rfl))

/-! ## The whole result -/

theorem result_eq : val_main_v51 (F := Ideal) x0 x1 x2 x3 x4 x5 x6 x7 x8
    = Cert.KernelIdeal.Whole.layerOut x0 x1 x2 x3 x4 x5 x6 x7 x8 := by
  funext j
  obtain ⟨p, q, rfl⟩ : ∃ (p : Fin 100000) (q : Fin 128), j = ix2 p q := ⟨j 0, j 1, eq_ix2 j⟩
  show max ((val_main_v46 (F := Ideal) x0 x7 (ix2 p q) + val_main_v48 (F := Ideal) x8 (ix2 p q))
        + (val_main_v20 (F := Ideal) x0 x1 x2 x5 (ix2 p q) + val_main_v41 (F := Ideal) x0 x3 x4 x6 (ix2 p q)) * Ideal.ofBits .f32 0x3F000000#32)
      (Ideal.ofBits .f32 0x00000000#32) = _
  rw [dot3_apply, bias_apply, mean1_eq, mean2_eq]
  rfl

end Cert.ReferenceIdeal.RefValue

end
-- ==== Proof.lean ====
/- The proof of `Cert.Claim`: a two-layer-type graph convolution — three dense projections of the node features (one
   pallas_call, twenty row blocks), per edge type the mean over incoming edges of the gathered projection rows (host lines), and
   the combine step max (self + (m₁ + m₂) · ½, 0) (a second pallas_call) — against the same layer written in plain jnp.

   The three frames: the two kernels' are the generated frame certificates; the reference's is its generated run with the result
   dropped. `preserves` is `True` (the ideal pass rewrote nothing). `algebraic`: the idealized kernel's result array ends at
   `layerOut` of the arguments (Proof/KernelWhole.lean: the frame's run read region by region — Proof/Region0.lean, the
   projections as sums over the contraction coordinate; Proof/Region1.lean, the combine step entry by entry — and the host lines
   between them as one function `segMean`), and the reference's run ends at the same function of the same arguments
   (Proof/RefBridge.lean: each `dot_general` with a transposed weight is the kernel's matrix product, the mean and the last
   lines are the kernel's operation for operation). The two sides are equal on every extended real, so the precondition is
   not opened. -/
import proofs.«156796_j46222438039793_1_alg».proof.Defs
import proofs.«156796_j46222438039793_1_alg».proof.Proof.Gen.Kernel
import proofs.«156796_j46222438039793_1_alg».proof.Proof.Gen.Kernel.Skeleton
import proofs.«156796_j46222438039793_1_alg».proof.Proof.Gen.Kernel.Launch
import proofs.«156796_j46222438039793_1_alg».proof.Proof.Gen.Kernel.Points
import proofs.«156796_j46222438039793_1_alg».proof.Proof.Gen.Kernel.Frame
import proofs.«156796_j46222438039793_1_alg».proof.Proof.Gen.KernelIdeal
import proofs.«156796_j46222438039793_1_alg».proof.Proof.Gen.KernelIdeal.Skeleton
import proofs.«156796_j46222438039793_1_alg».proof.Proof.Gen.KernelIdeal.Launch
import proofs.«156796_j46222438039793_1_alg».proof.Proof.Gen.KernelIdeal.Points
import proofs.«156796_j46222438039793_1_alg».proof.Proof.Gen.KernelIdeal.Frame
import proofs.«156796_j46222438039793_1_alg».proof.Proof.Gen.ReferenceIdeal
import proofs.«156796_j46222438039793_1_alg».proof.Proof.Gen.ReferenceIdeal.Run
import proofs.«156796_j46222438039793_1_alg».proof.Proof.Gen.ReferenceIdeal.Read
import proofs.«156796_j46222438039793_1_alg».proof.Proof.Gen.Pre_finite_inputs
import proofs.«156796_j46222438039793_1_alg».proof.Proof.KernelWhole
import proofs.«156796_j46222438039793_1_alg».proof.Proof.RefBridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both idealized programs end with the result array at `layerOut` of arguments that agree. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8⟩ := hagree c
  rw [Cert.ReferenceIdeal.Read.val_main_v51_eq, Cert.ReferenceIdeal.RefValue.result_eq, a0, a1, a2, a3, a4, a5, a6, a7, a8]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
